-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S_ : Shape := ⟨0, ![]⟩

class Facts : Prop where
  bcast_S_S4096x7x7x256 : S_.BroadcastsInDim S4096x7x7x256 (![] : Fin 0 → Fin S4096x7x7x256.rank)
  reducesTo_S4096x7x7x256_S_d0_1_2_3 : S4096x7x7x256.ReducesTo [0, 1, 2, 3] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x324 : S_.BroadcastsInDim S1024x324 (![] : Fin 0 → Fin S1024x324.rank)
  reducesTo_S1024x324_S_d0_1 : S1024x324.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg5 : FVec F S1024 .f32) (main_arg6 : FVec F S1024x324 .f32) (main_arg7 : FVec F S324 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x324 .f32 := Host.absf main_arg6
  let main_cst_8 : FVec F S_ .f32 := constant S_ .f32 0x7F800000#32
  let main_v25 : FVec F S1024x324 .f32 := broadcastInDim S1024x324 ![] bcast_S_S1024x324 main_cst_8
  let main_v26 : IVec S1024x324 1 := cmpf .olt main_v24 main_v25
  let main_c_9 : IVec S_ 1 := constantI S_ 1 1#1
  let main_v27 : IVec S_ 1 := (fun x v => Host.reduce IntOp.andi x v reducesTo_S1024x324_S_d0_1 h_S_) main_v26 main_c_9
  let main_v28 : IVec S_ 1 := andi main_v23 main_v27
  let main_v29 : FVec F S324 .f32 := Host.absf main_arg7
  let main_cst_10 : FVec F S_ .f32 := constant S_ .f32 0x7F800000#32
  let main_v30 : FVec F S324 .f32 := broadcastInDim S324 ![] bcast_S_S324 main_cst_10
  let main_v31 : IVec S324 1 := cmpf .olt main_v29 main_v30
  let main_c_11 : IVec S_ 1 := constantI S_ 1 1#1
  let main_v32 : IVec S_ 1 := (fun x v => Host.reduce IntOp.andi x v reducesTo_S324_S_d0 h_S_) main_v31 main_c_11
  let main_v33 : IVec S_ 1 := andi main_v28 main_v32
  main_v33

def fn {F : FTy → Type} [FloatOps F] (main_arg0 : FVec F S4096x7x7x256 .f32) (main_arg1 : IVec S4096 32) (main_arg2 : FVec F S12544x1024 .f32) (main_arg3 : FVec F S1024 .f32) (main_arg4 : FVec F S1024x1024 .f32) (main_arg5 : FVec F S1024 .f32) (main_arg6 : FVec F S1024x324 .f32) (main_arg7 : FVec F S324 .f32) : IVec S_ 1 :=
  let main_v0 : FVec F S4096x7x7x256 .f32 := Host.absf main_arg0
  let main_cst : FVec F S_ .f32 := constant S_ .f32 0x7F800000#32
  let main_v1 : FVec F S4096x7x7x256 .f32 := broadcastInDim S4096x7x7x256 ![] bcast_S_S4096x7x7x256 main_cst
  let main_v2 : IVec S4096x7x7x256 1 := cmpf .olt main_v0 main_v1
  let main_c : IVec S_ 1 := constantI S_ 1 1#1
  let main_v3 : IVec S_ 1 := (fun x v => Host.reduce IntOp.andi x v reducesTo_S4096x7x7x256_S_d0_1_2_3 h_S_) main_v2 main_c
  let main_v4 : FVec F S12544x1024 .f32 := Host.absf main_arg2
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S4096x12544 : Shape := ⟨2, ![4096, 12544]⟩
abbrev S1x1024 : Shape := ⟨2, ![1, 1024]⟩
abbrev S1x324 : Shape := ⟨2, ![1, 324]⟩
abbrev S4096x324 : Shape := ⟨2, ![4096, 324]⟩
abbrev S128x12544 : Shape := ⟨2, ![128, 12544]⟩
abbrev S128x324 : Shape := ⟨2, ![128, 324]⟩
abbrev S128x1024 : Shape := ⟨2, ![128, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4096x7x7x256, .f32⟩
  | .hbm, ⟨1, _⟩ => ⟨S4096, .i32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S4096x12544, .f32⟩
  | .hbm, ⟨9, _⟩ => ⟨S4096x12544, .bf16⟩
  | .hbm, ⟨10, _⟩ => ⟨S12544x1024, .bf16⟩
  | .hbm, ⟨11, _⟩ => ⟨S1024x1024, .bf16⟩
  | .hbm, ⟨12, _⟩ => ⟨S1024x324, .bf16⟩
  | .hbm, ⟨13, _⟩ => ⟨S1x1024, .f32⟩
  | .hbm, ⟨14, _⟩ => ⟨S1x1024, .f32⟩
  | .hbm, ⟨15, _⟩ => ⟨S1x324, .f32⟩
  | .hbm, ⟨16, _⟩ => ⟨S4096x324, .f32⟩
  | .local _ .vmem, ⟨0, _⟩ => ⟨S128x12544, .bf16⟩
  | .local _ .vmem, ⟨1, _⟩ => ⟨S128x12544, .bf16⟩
  | .local _ .vmem, ⟨2, _⟩ => ⟨S12544x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x324, .bf16⟩
  | .local _ .vmem, ⟨7, _⟩ => ⟨S1x324, .f32⟩
  | .local _ .vmem, ⟨8, _⟩ => ⟨S128x324, .f32⟩
  | .local _ .vmem, ⟨9, _⟩ => ⟨S128x324, .f32⟩
  | _, _ => ⟨S4096x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x324 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x324 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x324 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x7x7x256_S4096x12544 : S4096x7x7x256.ShapeCasts S4096x12544
  bitsLt_bf16_f32 : FTy.bits .bf16 < FTy.bits .f32
  shapeCasts_S1024_S1x1024 : S1024.ShapeCasts S1x1024
  shapeCasts_S324_S1x324 : S324.ShapeCasts S1x324
  inb_S128x12544_S128x12544_0_0 : ∀ a, (![0, 0] : Fin 2 → Nat) a + S128x12544.size a ≤ S128x12544.size a
  h_S128x12544 : 0 < S128x12544.numel
  shapeCasts_S128x12544_S128x12544 : S128x12544.ShapeCasts S128x12544
  inb_S12544x1024_S12544x1024_0_0 : ∀ a, (![0, 0] : Fin 2 → Nat) a + S12544x1024.size a ≤ S12544x1024.size a
  h_S12544x1024 : 0 < S12544x1024.numel
  shapeCasts_S12544x1024_S12544x1024 : S12544x1024.ShapeCasts S12544x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x324_S1024x324_0_0 : ∀ a, (![0, 0] : Fin 2 → Nat) a + S1024x324.size a ≤ S1024x324.size a
  h_S1024x324 : 0 < S1024x324.numel
  shapeCasts_S1024x324_S1024x324 : S1024x324.ShapeCasts S1024x324
  inb_S1x324_S1x324_0_0 : ∀ a, (![0, 0] : Fin 2 → Nat) a + S1x324.size a ≤ S1x324.size a
  h_S1x324 : 0 < S1x324.numel
  shapeCasts_S1x324_S1x324 : S1x324.ShapeCasts S1x324
  broadcasts_S1x324_S128x324 : S1x324.Broadcasts S128x324
  inb_S128x324_S128x324_0_0 : ∀ a, (![0, 0] : Fin 2 → Nat) a + S128x324.size a ≤ S128x324.size a
  h_S128x324 : 0 < S128x324.numel
  dot_S128x12544_S12544x1024_S128x1024_1_0_0_1_n_n_wf : DotDims.WF S128x12544 S12544x1024 S128x1024 [1] [0] [0] [1] [] []
  dot_S128x1024_S1024x1024_S128x1024_1_0_0_1_n_n_wf : DotDims.WF S128x1024 S1024x1024 S128x1024 [1] [0] [0] [1] [] []
  dot_S128x1024_S1024x324_S128x324_1_0_0_1_n_n_wf : DotDims.WF S128x1024 S1024x324 S128x324 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S4096x12544.size a
  hwx0_0 : ∀ i : grid0.Coords, EltTy.bits .bf16 = 32 ∨ (Rect.block (s := S4096x12544) S128x12544.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x1024.size a ≤ S12544x1024.size a
  hwx0_1 : ∀ i : grid0.Coords, EltTy.bits .bf16 = 32 ∨ (Rect.block (s := S12544x1024) S12544x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x324.size a ≤ S1024x324.size a
  hwx0_5 : ∀ i : grid0.Coords, EltTy.bits .bf16 = 32 ∨ (Rect.block (s := S1024x324) S1024x324.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x324.size a ≤ S1x324.size a
  hwx0_6 : ∀ i : grid0.Coords, EltTy.bits .f32 = 32 ∨ (Rect.block (s := S1x324) S1x324.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x324.size a ≤ S4096x324.size a
  hwx0_7 : ∀ i : grid0.Coords, EltTy.bits .f32 = 32 ∨ (Rect.block (s := S4096x324) S128x324.size (cc0_transform_7 i) (hinb0_7 i)).WholeWords (EltTy.packing .f32)

variable [Facts₀]

def dot_S128x12544_S12544x1024_S128x1024_1_0_0_1_n_n : DotDims S128x12544 S12544x1024 S128x1024 where
  lhsContracting := [1]
  rhsContracting := [0]
  lhsNonContracting := [0]
  rhsNonContracting := [1]
  lhsBatch := []
  rhsBatch := []
  wf := dot_S128x12544_S12544x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x324_S128x324_1_0_0_1_n_n : DotDims S128x1024 S1024x324 S128x324 where
  lhsContracting := [1]
  rhsContracting := [0]
  lhsNonContracting := [0]
  rhsNonContracting := [1]
  lhsBatch := []
  rhsBatch := []
  wf := dot_S128x1024_S1024x324_S128x324_1_0_0_1_n_n_wf

abbrev win0_0 : Pipeline.Window sig grid0 :=
  Pipeline.Window.ofSpec (Memref.whole main_v1) S128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12544x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x324.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x324.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x324.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S4096x12544 : Shape := ⟨2, ![4096, 12544]⟩
abbrev S4096x1024 : Shape := ⟨2, ![4096, 1024]⟩
abbrev S1x1024 : Shape := ⟨2, ![1, 1024]⟩
abbrev S_ : Shape := ⟨0, ![]⟩
abbrev S4096x324 : Shape := ⟨2, ![4096, 324]⟩
abbrev S1x324 : Shape := ⟨2, ![1, 324]⟩

abbrev nBuf : Space → Nat
  | .hbm => 27
  | .vmem => 0
  | .smem => 0
  | _ => 0

abbrev bufTy : (tb : Table) → Fin (tcTables nBuf tb) → BufTy
  | .hbm, ⟨0, _⟩ => ⟨S4096x7x7x256, .f32⟩
  | .hbm, ⟨1, _⟩ => ⟨S4096, .i32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S4096x12544, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x324, .f32⟩
  | .hbm, ⟨24, _⟩ => ⟨S1x324, .f32⟩
  | .hbm, ⟨25, _⟩ => ⟨S4096x324, .f32⟩
  | .hbm, ⟨26, _⟩ => ⟨S4096x324, .f32⟩
  | _, _ => ⟨S4096x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  shapeCasts_S4096x7x7x256_S4096x12544 : S4096x7x7x256.ShapeCasts S4096x12544
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S324_S1x324_1 : S324.BroadcastsInDim S1x324 (![1] : Fin 1 → Fin S1x324.rank)
  bcast_S1x324_S4096x324_0_1 : S1x324.BroadcastsInDim S4096x324 (![0, 1] : Fin 2 → Fin S4096x324.rank)
  dot_S4096x12544_S12544x1024_S4096x1024_1_0_0_1_n_n_wf : DotDims.WF S4096x12544 S12544x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x324_S4096x324_1_0_0_1_n_n_wf : DotDims.WF S4096x1024 S1024x324 S4096x324 [1] [0] [0] [1] [] []

variable [Facts₀]

def dot_S4096x12544_S12544x1024_S4096x1024_1_0_0_1_n_n : DotDims S4096x12544 S12544x1024 S4096x1024 where
  lhsContracting := [1]
  rhsContracting := [0]
  lhsNonContracting := [0]
  rhsNonContracting := [1]
  lhsBatch := []
  rhsBatch := []
  wf := dot_S4096x12544_S12544x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x324_S4096x324_1_0_0_1_n_n : DotDims S4096x1024 S1024x324 S4096x324 where
  lhsContracting := [1]
  rhsContracting := [0]
  lhsNonContracting := [0]
  rhsNonContracting := [1]
  lhsBatch := []
  rhsBatch := []
  wf := dot_S4096x1024_S1024x324_S4096x324_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibDenseLayer.lean ====
import Idealize.ShloMosaic.PureOps.Ideal.Laws
import Idealize.ShloMosaic.Lib.ValueIdx
import Idealize.ShloMosaic.Lib.Pipeline.Value
import proofs.«140255_j57166014709942_1_alg».proof.Proof.LibPlainDot

/-!
  A dense layer as a vector unit computes it on a block of M rows: a plain [M, K] · [K, N] matrix product accumulated
  into the zero splat, plus a bias row of shape [1, N] broadcast down the M rows, optionally followed by the maximum
  with a broadcast scalar. Read at entry (p, j) at the ideal values this is (Σ_k x(p, k) · w(k, j)) + bias(0, j), and
  with the rectifier the maximum of that with the scalar. The dimension record is a variable with its six lists as
  hypotheses, so the lemmas apply to every record of this shape.
-/

open scoped BigOperators

namespace Cert.Lib.DenseLayer

open Idealize.ShloMosaic Idealize.ShloMosaic.ValueIdx

variable {M K N : Nat} (d : DotDims ⟨2, ![M, K]⟩ ⟨2, ![K, N]⟩ ⟨2, ![M, N]⟩)

/-- A bias row [1, N] broadcast to [M, N] reads, at (p, j), its entry (0, j). -/
theorem bias_apply {α : Type} (bias : (⟨2, ![1, N]⟩ : Shape).Idx → α)
    (hb : (⟨2, ![1, N]⟩ : Shape).Broadcasts ⟨2, ![M, N]⟩) (p : Fin M) (j : Fin N) :
    broadcastTo ⟨2, ![M, N]⟩ bias hb (ix2 p j) = bias (ix2 (0 : Fin 1) j) :=
  broadcastTo_apply bias hb (ix2 p j) (ix2 (0 : Fin 1) j) (fun a => by
    match a with
    | ⟨0, _⟩ => show 0 = if (1 : Nat) = 1 then 0 else _; rw [if_pos rfl]
    | ⟨1, _⟩ =>
      show j.val = if N = 1 then 0 else j.val
      split
      · have := j.isLt; omega
      · rfl)

/-- The affine layer at entry (p, j): the contraction sum plus the bias entry. -/
theorem affine_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ φ₁) (w : FVec Ideal ⟨2, ![K, N]⟩ φ₂) (bias : FVec Ideal ⟨2, ![1, N]⟩ .f32)
    (hb : (⟨2, ![1, N]⟩ : Shape).Broadcasts ⟨2, ![M, N]⟩) (p : Fin M) (j : Fin N) :
    addf (FloatOps.matmul d prec x w (constant (F := Ideal) ⟨2, ![M, N]⟩ .f32 0x00000000#32))
        (broadcastTo ⟨2, ![M, N]⟩ bias hb) (ix2 p j)
      = (∑ k : Fin K, x (ix2 p k) * w (ix2 k j)) + bias (ix2 (0 : Fin 1) j) := by
  show FloatOps.matmul d prec x w (constant (F := Ideal) ⟨2, ![M, N]⟩ .f32 0x00000000#32) (ix2 p j)
      + broadcastTo ⟨2, ![M, N]⟩ bias hb (ix2 p j) = _
  rw [Cert.Lib.PlainDot.matmul_zero_apply d hlc hrc hln hrn hlb hrb prec x w p j, bias_apply bias hb p j]

/-- The rectified affine layer at entry (p, j): the maximum of the affine layer's entry with the broadcast scalar. -/
theorem relu_affine_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ φ₁) (w : FVec Ideal ⟨2, ![K, N]⟩ φ₂) (bias : FVec Ideal ⟨2, ![1, N]⟩ .f32)
    (hb : (⟨2, ![1, N]⟩ : Shape).Broadcasts ⟨2, ![M, N]⟩) (z : Ideal .f32) (p : Fin M) (j : Fin N) :
    maximumf (addf (FloatOps.matmul d prec x w (constant (F := Ideal) ⟨2, ![M, N]⟩ .f32 0x00000000#32))
        (broadcastTo ⟨2, ![M, N]⟩ bias hb)) (broadcast ⟨2, ![M, N]⟩ z) (ix2 p j)
      = max ((∑ k : Fin K, x (ix2 p k) * w (ix2 k j)) + bias (ix2 (0 : Fin 1) j)) z := by
  show max (addf (FloatOps.matmul d prec x w (constant (F := Ideal) ⟨2, ![M, N]⟩ .f32 0x00000000#32))
        (broadcastTo ⟨2, ![M, N]⟩ bias hb) (ix2 p j)) z = _
  rw [affine_apply d hlc hrc hln hrn hlb hrb prec x w bias hb p j]

end Cert.Lib.DenseLayer
-- ==== Proof.MlpSpec.lean ====
import Idealize.ShloMosaic.PureOps.Ideal
import Idealize.ShloMosaic.Lib.ValueIdx

/-!
  A three-layer perceptron on the extended reals, one feature row at a time.

  An affine layer sends a row x of length K to the row whose entry j is (Σ_k x_k · w_{k,j}) + b_j; the rectifier
  replaces every entry by its maximum with zero. The network is affine ∘ rectifier ∘ affine ∘ rectifier ∘ affine,
  with layer widths 12544 → 1024 → 1024 → 324. Each output row depends on its own input row only, so the result
  array over 4096 rows is the network applied to row r of the features, for every r.
-/

open scoped BigOperators

noncomputable section

namespace Cert.Mlp

open Idealize.ShloMosaic Idealize.ShloMosaic.ValueIdx

/-- The zero the rectifier compares with: the extended real the all-zero f32 word encodes. -/
abbrev zero : EReal := Ideal.ofBits .f32 0x00000000#32

/-- An affine layer on one row: entry j is the inner product of the row with column j of the weights, plus the bias. -/
def affine {K N : Nat} (x : Fin K → EReal) (w : Fin K → Fin N → EReal) (b : Fin N → EReal) : Fin N → EReal :=
  fun j => (∑ k : Fin K, x k * w k j) + b j

/-- The rectifier, entry by entry. -/
def relu {N : Nat} (h : Fin N → EReal) : Fin N → EReal := fun j => max (h j) zero

/-- The network on one feature row. -/
def row (x : Fin 12544 → EReal) (w1 : Fin 12544 → Fin 1024 → EReal) (b1 : Fin 1024 → EReal)
    (w2 : Fin 1024 → Fin 1024 → EReal) (b2 : Fin 1024 → EReal)
    (w3 : Fin 1024 → Fin 324 → EReal) (b3 : Fin 324 → EReal) : Fin 324 → EReal :=
  affine (relu (affine (relu (affine x w1 b1)) w2 b2)) w3 b3

/-- The result array: entry (r, q) is entry q of the network applied to feature row r. -/
def G (x : Fin 4096 → Fin 12544 → EReal) (w1 : Fin 12544 → Fin 1024 → EReal) (b1 : Fin 1024 → EReal)
    (w2 : Fin 1024 → Fin 1024 → EReal) (b2 : Fin 1024 → EReal)
    (w3 : Fin 1024 → Fin 324 → EReal) (b3 : Fin 324 → EReal) : (⟨2, ![4096, 324]⟩ : Shape).Idx → EReal :=
  fun i => row (x (i 0)) w1 b1 w2 b2 w3 b3 (i 1)

/-- The result array of the argument arrays: the features flattened to [4096, 12544], the weights as matrices, the
    biases as vectors. -/
def ofArrays (X : (⟨2, ![4096, 12544]⟩ : Shape).Idx → EReal) (W1 : (⟨2, ![12544, 1024]⟩ : Shape).Idx → EReal)
    (B1 : (⟨1, ![1024]⟩ : Shape).Idx → EReal) (W2 : (⟨2, ![1024, 1024]⟩ : Shape).Idx → EReal)
    (B2 : (⟨1, ![1024]⟩ : Shape).Idx → EReal) (W3 : (⟨2, ![1024, 324]⟩ : Shape).Idx → EReal)
    (B3 : (⟨1, ![324]⟩ : Shape).Idx → EReal) : (⟨2, ![4096, 324]⟩ : Shape).Idx → EReal :=
  G (fun r k => X (ix2 r k)) (fun k j => W1 (ix2 k j)) (fun j => B1 (ix1 j)) (fun k j => W2 (ix2 k j))
    (fun j => B2 (ix1 j)) (fun k j => W3 (ix2 k j)) (fun j => B3 (ix1 j))

end Cert.Mlp

end
-- ==== Proof.KernelRow.lean ====
import proofs.«140255_j57166014709942_1_alg».proof.Proof.Gen.KernelIdeal.Skeleton
import proofs.«140255_j57166014709942_1_alg».proof.Proof.LibDenseLayer
import proofs.«140255_j57166014709942_1_alg».proof.Proof.MlpSpec
import Idealize.ShloMosaic.Lib.Pipeline.Value

/-!
  What the kernel body stores, read at one entry. The body works on a block of 128 feature rows against the three
  whole weight matrices and bias rows. Its three matrix products accumulate into zero, its changes of float format are
  the identity on extended reals and its same-shape casts the identity on values, so entry (p, q) of the stored block
  is entry q of the three-layer perceptron applied to row p of the feature block — a function of that one row.
-/

open scoped BigOperators

noncomputable section

namespace Cert.KernelIdeal.BlockValue

open Cert.KernelIdeal Cert.KernelIdeal.Gen Idealize.ShloMosaic Idealize.ShloMosaic.ValueIdx

/-- Entry (p, q) of the block the body stores is entry q of the network on row p of the feature block. -/
theorem pay_apply (v0 : Vec Ideal S128x12544 .bf16) (v2 : Vec Ideal S12544x1024 .bf16) (v5 : Vec Ideal S1x1024 .f32)
    (v12 : Vec Ideal S1024x1024 .bf16) (v15 : Vec Ideal S1x1024 .f32) (v22 : Vec Ideal S1024x324 .bf16)
    (v25 : Vec Ideal S1x324 .f32) (p : Fin 128) (q : Fin 324) :
    k0_pay1 (F := Ideal) v0 v2 v5 v12 v15 v22 v25 (ix2 p q)
      = Mlp.row (fun k => v0 (ix2 p k)) (fun k j => v2 (ix2 k j)) (fun j => v5 (ix2 (0 : Fin 1) j))
          (fun k j => v12 (ix2 k j)) (fun j => v15 (ix2 (0 : Fin 1) j))
          (fun k j => v22 (ix2 k j)) (fun j => v25 (ix2 (0 : Fin 1) j)) q := by
  unfold k0_pay1
  simp only [shapeCast_self]
  have e3 := Cert.Lib.DenseLayer.affine_apply (φ₁ := .bf16) (φ₂ := .bf16) dot_S128x1024_S1024x324_S128x324_1_0_0_1_n_n rfl rfl rfl rfl rfl rfl none
  have e2 := Cert.Lib.DenseLayer.relu_affine_apply (φ₁ := .bf16) (φ₂ := .bf16) dot_S128x1024_S1024x1024_S128x1024_1_0_0_1_n_n rfl rfl rfl rfl rfl rfl none
  have e1 := Cert.Lib.DenseLayer.relu_affine_apply (φ₁ := .bf16) (φ₂ := .bf16) dot_S128x12544_S12544x1024_S128x1024_1_0_0_1_n_n rfl rfl rfl rfl rfl rfl none
  simp only [e3, e2, e1, truncf_apply]
  rfl

/-- The stored block against a whole array: if row (y 0) of the feature block is row (i 0) of the features, the weight
    blocks are the weight matrices and the bias rows the biases, then the stored block's entry y is the network's
    result array at i, for i in column (y 1). -/
theorem block_row (v0 : Vec Ideal S128x12544 .bf16) (v2 : Vec Ideal S12544x1024 .bf16) (v5 : Vec Ideal S1x1024 .f32)
    (v12 : Vec Ideal S1024x1024 .bf16) (v15 : Vec Ideal S1x1024 .f32) (v22 : Vec Ideal S1024x324 .bf16)
    (v25 : Vec Ideal S1x324 .f32)
    (x : Fin 4096 → Fin 12544 → EReal) (w1 : Fin 12544 → Fin 1024 → EReal) (b1 : Fin 1024 → EReal)
    (w2 : Fin 1024 → Fin 1024 → EReal) (b2 : Fin 1024 → EReal) (w3 : Fin 1024 → Fin 324 → EReal) (b3 : Fin 324 → EReal)
    (y : S128x324.Idx) (i : S4096x324.Idx) (hq : i 1 = y 1)
    (e0 : ∀ k, v0 (ix2 (y 0) k) = x (i 0) k) (e1 : ∀ k j, v2 (ix2 k j) = w1 k j)
    (e2 : ∀ j, v5 (ix2 (0 : Fin 1) j) = b1 j) (e3 : ∀ k j, v12 (ix2 k j) = w2 k j)
    (e4 : ∀ j, v15 (ix2 (0 : Fin 1) j) = b2 j) (e5 : ∀ k j, v22 (ix2 k j) = w3 k j)
    (e6 : ∀ j, v25 (ix2 (0 : Fin 1) j) = b3 j) :
    k0_pay1 (F := Ideal) v0 v2 v5 v12 v15 v22 v25 y = Mlp.G x w1 b1 w2 b2 w3 b3 i := by
  obtain ⟨p, q, rfl⟩ : ∃ (p : Fin 128) (q : Fin 324), y = ix2 p q := ⟨y 0, y 1, eq_ix2 y⟩
  rw [pay_apply]
  have h0 : (fun k => v0 (ix2 p k)) = x (i 0) := funext e0
  have h1 : (fun k j => v2 (ix2 k j)) = w1 := funext fun k => funext (e1 k)
  have h2 : (fun j => v5 (ix2 (0 : Fin 1) j)) = b1 := funext e2
  have h3 : (fun k j => v12 (ix2 k j)) = w2 := funext fun k => funext (e3 k)
  have h4 : (fun j => v15 (ix2 (0 : Fin 1) j)) = b2 := funext e4
  have h5 : (fun k j => v22 (ix2 k j)) = w3 := funext fun k => funext (e5 k)
  have h6 : (fun j => v25 (ix2 (0 : Fin 1) j)) = b3 := funext e6
  rw [h0, h1, h2, h3, h4, h5, h6]
  show Mlp.row (x (i 0)) w1 b1 w2 b2 w3 b3 q = Mlp.row (x (i 0)) w1 b1 w2 b2 w3 b3 (i 1)
  rw [hq]

end Cert.KernelIdeal.BlockValue

end
-- ==== Proof.KernelValue.lean ====
import proofs.«140255_j57166014709942_1_alg».proof.Proof.Gen.KernelIdeal.Value
import proofs.«140255_j57166014709942_1_alg».proof.Proof.KernelRow
import Idealize.ShloMosaic.Lib.StableHlo.Run
import Idealize.ShloMosaic.Lib.Pipeline.Value

/-!
  From blocks to the array. Grid point t stages rows 128·t … 128·t + 127 of the flattened features and the whole of
  each weight matrix and bias row, and writes back rows 128·t … 128·t + 127 of the result. An entry of the stored block
  depends on one feature row only, so what point t writes back is block t of ONE array: the network applied to every
  row of the staged features. The 32 blocks tile the 4096 rows, so the result array ends holding that array. The staged
  arrays are the arguments re-laid by the host: the features flattened to [4096, 12544], each bias as a [1, n] row, and
  changes of float format, which are the identity on extended reals.
-/

set_option maxRecDepth 16384

open scoped BigOperators

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The arrays the windows stage, as the host left them -/

abbrev stagedX (c : Dev nD) : S4096x12544.Idx → EReal := V m c main_v1
abbrev stagedW1 (c : Dev nD) : S12544x1024.Idx → EReal := V m c main_v2
abbrev stagedB1 (c : Dev nD) : S1x1024.Idx → EReal := V m c main_v5
abbrev stagedW2 (c : Dev nD) : S1024x1024.Idx → EReal := V m c main_v3
abbrev stagedB2 (c : Dev nD) : S1x1024.Idx → EReal := V m c main_v6
abbrev stagedW3 (c : Dev nD) : S1024x324.Idx → EReal := V m c main_v4
abbrev stagedB3 (c : Dev nD) : S1x324.Idx → EReal := V m c main_v7

/-- The network applied to every row of the staged features, with the staged weights and bias rows. -/
def staged (c : Dev nD) : S4096x324.Idx → EReal :=
  Mlp.G (fun r k => stagedX m c (ix2 r k)) (fun k j => stagedW1 m c (ix2 k j)) (fun j => stagedB1 m c (ix2 (0 : Fin 1) j))
    (fun k j => stagedW2 m c (ix2 k j)) (fun j => stagedB2 m c (ix2 (0 : Fin 1) j))
    (fun k j => stagedW3 m c (ix2 k j)) (fun j => stagedB3 m c (ix2 (0 : Fin 1) j))

/-! ## What a point writes back -/

/-- The printed index maps, decided over the 32 grid points: the feature window moves with the result window down the
    rows, every other input window stays on its one block, and the result window's block index is the point. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 31 ∧ win0_7.index t (1 : Fin 2) = 0 :=
  (by decide +kernel : ∀ t : Fin grid0.N, _)

/-- Every block of rows is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-- What point t writes back is block t of the network applied to the staged features. -/
theorem flushed_eq (c : Dev nD) (t : Fin cfg0.N) :
    (dats m 0 c).flushed 7 t = ((cfg0.win 7).blk t).view.read (Elt Ideal) (staged m c) := by
  rw [Value.flushed7]
  unfold out0_7
  rw [View.canon_unit_zero offsets_zero]
  simp only [View.ld_unit_zero (S := S128x12544) offsets_zero, View.ld_unit_zero (S := S12544x1024) offsets_zero,
    View.ld_unit_zero (S := S1x1024) offsets_zero, View.ld_unit_zero (S := S1024x1024) offsets_zero,
    View.ld_unit_zero (S := S1024x324) offsets_zero, View.ld_unit_zero (S := S1x324) offsets_zero]
  obtain ⟨a00, a01, a10, a11, a20, a21, a30, a31, a40, a41, a50, a51, a60, a61, a70, a71⟩ := idx_facts t
  funext y
  show k0_pay1 (iblk m c 0 t) (iblk m c 1 t) (iblk m c 2 t) (iblk m c 3 t) (iblk m c 4 t) (iblk m c 5 t) (iblk m c 6 t) y
      = staged m c (((cfg0.win 7).blk t).view.emb y)
  unfold staged
  refine BlockValue.block_row _ _ _ _ _ _ _ _ _ _ _ _ _ _ y _ (Fin.ext ?_) ?_ ?_ ?_ ?_ ?_ ?_ ?_
  · show win0_7.index t (1 : Fin 2) * 324 + 1 * (y 1).val = (y 1).val
    rw [a71]; omega
  · intro k
    show stagedX m c (((cfg0.win 0).blk t).view.emb (ix2 (y 0) k)) = stagedX m c (ix2 ((((cfg0.win 7).blk t).view.emb y) 0) k)
    refine congrArg _ (funext fun a => Fin.ext ?_)
    match a with
    | ⟨0, _⟩ => show win0_0.index t (0 : Fin 2) * 128 + 1 * (y 0).val = win0_7.index t (0 : Fin 2) * 128 + 1 * (y 0).val; rw [a00]
    | ⟨1, _⟩ => show win0_0.index t (1 : Fin 2) * 12544 + 1 * k.val = k.val; rw [a01]; omega
  · intro k j
    show stagedW1 m c (((cfg0.win 1).blk t).view.emb (ix2 k j)) = stagedW1 m c (ix2 k j)
    refine congrArg _ (funext fun a => Fin.ext ?_)
    match a with
    | ⟨0, _⟩ => show win0_1.index t (0 : Fin 2) * 12544 + 1 * k.val = k.val; rw [a10]; omega
    | ⟨1, _⟩ => show win0_1.index t (1 : Fin 2) * 1024 + 1 * j.val = j.val; rw [a11]; omega
  · intro j
    show stagedB1 m c (((cfg0.win 2).blk t).view.emb (ix2 (0 : Fin 1) j)) = stagedB1 m c (ix2 (0 : Fin 1) j)
    refine congrArg _ (funext fun a => Fin.ext ?_)
    match a with
    | ⟨0, _⟩ => show win0_2.index t (0 : Fin 2) * 1 + 1 * 0 = 0; rw [a20]
    | ⟨1, _⟩ => show win0_2.index t (1 : Fin 2) * 1024 + 1 * j.val = j.val; rw [a21]; omega
  · intro k j
    show stagedW2 m c (((cfg0.win 3).blk t).view.emb (ix2 k j)) = stagedW2 m c (ix2 k j)
    refine congrArg _ (funext fun a => Fin.ext ?_)
    match a with
    | ⟨0, _⟩ => show win0_3.index t (0 : Fin 2) * 1024 + 1 * k.val = k.val; rw [a30]; omega
    | ⟨1, _⟩ => show win0_3.index t (1 : Fin 2) * 1024 + 1 * j.val = j.val; rw [a31]; omega
  · intro j
    show stagedB2 m c (((cfg0.win 4).blk t).view.emb (ix2 (0 : Fin 1) j)) = stagedB2 m c (ix2 (0 : Fin 1) j)
    refine congrArg _ (funext fun a => Fin.ext ?_)
    match a with
    | ⟨0, _⟩ => show win0_4.index t (0 : Fin 2) * 1 + 1 * 0 = 0; rw [a40]
    | ⟨1, _⟩ => show win0_4.index t (1 : Fin 2) * 1024 + 1 * j.val = j.val; rw [a41]; omega
  · intro k j
    show stagedW3 m c (((cfg0.win 5).blk t).view.emb (ix2 k j)) = stagedW3 m c (ix2 k j)
    refine congrArg _ (funext fun a => Fin.ext ?_)
    match a with
    | ⟨0, _⟩ => show win0_5.index t (0 : Fin 2) * 1024 + 1 * k.val = k.val; rw [a50]; omega
    | ⟨1, _⟩ => show win0_5.index t (1 : Fin 2) * 324 + 1 * j.val = j.val; rw [a51]; omega
  · intro j
    show stagedB3 m c (((cfg0.win 6).blk t).view.emb (ix2 (0 : Fin 1) j)) = stagedB3 m c (ix2 (0 : Fin 1) j)
    refine congrArg _ (funext fun a => Fin.ext ?_)
    match a with
    | ⟨0, _⟩ => show win0_6.index t (0 : Fin 2) * 1 + 1 * 0 = 0; rw [a60]
    | ⟨1, _⟩ => show win0_6.index t (1 : Fin 2) * 324 + 1 * j.val = j.val; rw [a61]; omega

/-! ## The blocks tile the result -/

/-- An index of the result is in point t's block iff each coordinate is in the block's range on its axis. -/
theorem mem_blk (t : Fin cfg0.N) (i : S4096x324.Idx) :
    i ∈ ((cfg0.win 7).blk t).view.set ↔ ∀ a : Fin 2, win0_7.index t a * S128x324.size a ≤ (i a).val
      ∧ (i a).val < win0_7.index t a * S128x324.size a + S128x324.size a := by
  show i ∈ ((View.whole main_v8).slice (win0_7.rect t)).set ↔ _
  rw [View.set_slice_whole, Rect.mem_set_unit]
  exact Iff.rfl

/-- Row r of the result lies in the block of point r / 128. -/
theorem cover (i : S4096x324.Idx) :
    ∃ t : Fin cfg0.N, (cfg0.win 7).flush t = true ∧ i ∈ ((cfg0.win 7).blk t).view.set := by
  have hi0 : (i 0).val < 4096 := (i 0).isLt
  have hi1 : (i 1).val < 324 := (i 1).isLt
  obtain ⟨t, ht⟩ := idx_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 128 ≤ (i 0).val ∧ (i 0).val < win0_7.index t (0 : Fin 2) * 128 + 128
    omega
  | ⟨1, _⟩ =>
    show win0_7.index t (1 : Fin 2) * 324 ≤ (i 1).val ∧ (i 1).val < win0_7.index t (1 : Fin 2) * 324 + 324
    omega

/-- The result array after the run is the network applied to every row of the staged features. -/
theorem final (c : Dev nD) : (dats m 0 c).arrAt 7 cfg0.N = staged m c :=
  (dats m 0 c).arrAt_eq_of_cover 7 (staged m c) (fun t _ => flushed_eq m c t) cover

/-! ## The staged arrays are the arguments, re-laid -/

theorem stagedX_eq (c : Dev nD) :
    stagedX m c = shapeCast S4096x12544 (m ((c : Thread nD τ).loc main_arg0)) shapeCasts_S4096x7x7x256_S4096x12544 := by
  dsimp only [stagedX, Gen.V, Gen.hostOps0]; after_results <;> rfl
theorem stagedW1_eq (c : Dev nD) : stagedW1 m c = m ((c : Thread nD τ).loc main_arg2) := by
  dsimp only [stagedW1, Gen.V, Gen.hostOps0]; after_results <;> rfl
theorem stagedW2_eq (c : Dev nD) : stagedW2 m c = m ((c : Thread nD τ).loc main_arg4) := by
  dsimp only [stagedW2, Gen.V, Gen.hostOps0]; after_results <;> rfl
theorem stagedW3_eq (c : Dev nD) : stagedW3 m c = m ((c : Thread nD τ).loc main_arg6) := by
  dsimp only [stagedW3, Gen.V, Gen.hostOps0]; after_results <;> rfl
theorem stagedB1_eq (c : Dev nD) :
    stagedB1 m c = shapeCast S1x1024 (m ((c : Thread nD τ).loc main_arg3)) shapeCasts_S1024_S1x1024 := by
  dsimp only [stagedB1, Gen.V, Gen.hostOps0]; after_results <;> rfl
theorem stagedB2_eq (c : Dev nD) :
    stagedB2 m c = shapeCast S1x1024 (m ((c : Thread nD τ).loc main_arg5)) shapeCasts_S1024_S1x1024 := by
  dsimp only [stagedB2, Gen.V, Gen.hostOps0]; after_results <;> rfl
theorem stagedB3_eq (c : Dev nD) :
    stagedB3 m c = shapeCast S1x324 (m ((c : Thread nD τ).loc main_arg7)) shapeCasts_S324_S1x324 := by
  dsimp only [stagedB3, Gen.V, Gen.hostOps0]; after_results <;> rfl

/-- A vector reshaped to one row reads, at (0, j), its entry j. -/
theorem row_of_vector {n : Nat} {α : Type} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- The network on the staged arrays is the specification's array of the arguments. -/
theorem staged_eq (c : Dev nD) :
    staged m c = Mlp.ofArrays
      (shapeCast S4096x12544 (m ((c : Thread nD τ).loc main_arg0)) shapeCasts_S4096x7x7x256_S4096x12544)
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold staged Mlp.ofArrays
  rw [stagedX_eq, stagedW1_eq, stagedW2_eq, stagedW3_eq, stagedB1_eq, stagedB2_eq, stagedB3_eq]
  simp only [row_of_vector]

/-! ## The run, read -/

/-- Every weakly fair execution of the idealized kernel's @main terminates with the result array at the
    specification's array of the arguments, the arguments unchanged. -/
theorem run : θ_run defs (onTc (τ := τ) (main (F := Ideal))) ⟨m, fun _ => 0, ρ⟩ fun r => ∀ c : Dev nD,
      r.2.mem ((c : Thread nD τ).loc main_v8) = Mlp.ofArrays
        (shapeCast S4096x12544 (m ((c : Thread nD τ).loc main_arg0)) shapeCasts_S4096x7x7x256_S4096x12544)
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (staged_eq m c)), (h c).2⟩)
    (Value.run_blocks m ρ)

end Cert.KernelIdeal.ArrayValue

end
-- ==== Proof.RefIsMlp.lean ====
import proofs.«140255_j57166014709942_1_alg».proof.Proof.Gen.ReferenceIdeal.Read
import proofs.«140255_j57166014709942_1_alg».proof.Proof.MlpSpec

/-!
  The reference's result, stage by stage, is the three-layer perceptron of the specification: its first hidden
  activations at (r, j) are the rectified affine layer of feature row r, its second those of the first, and its
  result at (r, q) the last affine layer of the second. Each host matrix product is read as its contraction sum, each
  bias broadcast as the bias entry of the column, the rectifier as the maximum with the zero word's value.
-/

open scoped BigOperators

noncomputable section

namespace Cert.ReferenceIdeal.RefValue

open Cert.ReferenceIdeal Cert.ReferenceIdeal.Read Idealize.ShloMosaic Idealize.ShloMosaic.ValueIdx

variable (x0 : (⟨S4096x7x7x256, .f32⟩ : BufTy).Contents (Elt Ideal)) (x2 : (⟨S12544x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x324, .f32⟩ : BufTy).Contents (Elt Ideal))
  (x7 : (⟨S324, .f32⟩ : BufTy).Contents (Elt Ideal))

/-! ## The operand indices of the three products, and of the three bias broadcasts, as coordinates -/

theorem l1 (p : Fin 4096) (j : Fin 1024) (k : Fin 12544) : lidx_main_v1 (ix2 p j) k = ix2 p k :=
  funext fun a => by match a with | ⟨0, _⟩ => rfl | ⟨1, _⟩ => rfl
theorem r1 (p : Fin 4096) (j : Fin 1024) (k : Fin 12544) : ridx_main_v1 (ix2 p j) k = ix2 k j :=
  funext fun a => by match a with | ⟨0, _⟩ => rfl | ⟨1, _⟩ => rfl
theorem c1 (p : Fin 4096) (j : Fin 1024) : idx_main_v2 (idx_main_v3 (ix2 p j)) = ix1 j :=
  funext fun a => by match a with | ⟨0, _⟩ => rfl
theorem l2 (p : Fin 4096) (j : Fin 1024) (k : Fin 1024) : lidx_main_v6 (ix2 p j) k = ix2 p k :=
  funext fun a => by match a with | ⟨0, _⟩ => rfl | ⟨1, _⟩ => rfl
theorem r2 (p : Fin 4096) (j : Fin 1024) (k : Fin 1024) : ridx_main_v6 (ix2 p j) k = ix2 k j :=
  funext fun a => by match a with | ⟨0, _⟩ => rfl | ⟨1, _⟩ => rfl
theorem c2 (p : Fin 4096) (j : Fin 1024) : idx_main_v7 (idx_main_v8 (ix2 p j)) = ix1 j :=
  funext fun a => by match a with | ⟨0, _⟩ => rfl
theorem l3 (p : Fin 4096) (q : Fin 324) (k : Fin 1024) : lidx_main_v11 (ix2 p q) k = ix2 p k :=
  funext fun a => by match a with | ⟨0, _⟩ => rfl | ⟨1, _⟩ => rfl
theorem r3 (p : Fin 4096) (q : Fin 324) (k : Fin 1024) : ridx_main_v11 (ix2 p q) k = ix2 k q :=
  funext fun a => by match a with | ⟨0, _⟩ => rfl | ⟨1, _⟩ => rfl
theorem c3 (p : Fin 4096) (q : Fin 324) : idx_main_v12 (idx_main_v13 (ix2 p q)) = ix1 q :=
  funext fun a => by match a with | ⟨0, _⟩ => rfl

/-! ## The three layers -/

/-- The first hidden activations: the rectified affine layer of feature row p. -/
theorem hidden1 (p : Fin 4096) (j : Fin 1024) :
    val_main_v5 (F := Ideal) x0 x2 x3 (ix2 p j)
      = Mlp.relu (Mlp.affine (fun k => val_main_v0 (F := Ideal) x0 (ix2 p k)) (fun k j => x2 (ix2 k j)) (fun j => x3 (ix1 j))) j := by
  rw [val_main_v5_apply, val_main_v4_apply, val_main_v1_apply, val_main_v3_apply, val_main_v2_apply,
    val_main_call0_v0_apply, val_main_call0_cst_apply]
  simp only [l1, r1, c1]
  rfl

/-- The second hidden activations: the rectified affine layer of the first. -/
theorem hidden2 (p : Fin 4096) (j : Fin 1024) :
    val_main_v10 (F := Ideal) x0 x2 x3 x4 x5 (ix2 p j)
      = Mlp.relu (Mlp.affine (Mlp.relu (Mlp.affine (fun k => val_main_v0 (F := Ideal) x0 (ix2 p k)) (fun k j => x2 (ix2 k j))
          (fun j => x3 (ix1 j)))) (fun k j => x4 (ix2 k j)) (fun j => x5 (ix1 j))) j := by
  rw [val_main_v10_apply, val_main_v9_apply, val_main_v6_apply, val_main_v8_apply, val_main_v7_apply,
    val_main_call1_v0_apply, val_main_call1_cst_apply]
  simp only [l2, r2, c2, hidden1]
  rfl

/-- The reference's result is the specification's array of the flattened features, the weights and the biases. -/
theorem result_eq :
    val_main_v14 (F := Ideal) x0 x2 x3 x4 x5 x6 x7 = Mlp.ofArrays (val_main_v0 (F := Ideal) x0) x2 x3 x4 x5 x6 x7 := by
  funext i
  obtain ⟨p, q, rfl⟩ : ∃ (p : Fin 4096) (q : Fin 324), i = ix2 p q := ⟨i 0, i 1, eq_ix2 i⟩
  rw [val_main_v14_apply, val_main_v11_apply, val_main_v13_apply, val_main_v12_apply]
  simp only [l3, r3, c3, hidden2]
  rfl

end Cert.ReferenceIdeal.RefValue

end
-- ==== Proof.lean ====
/-
  A row-tiled three-layer perceptron against its plain jnp form, over the extended reals.

  Both programs compute, for each of 4096 feature rows x (the features flattened to length 12544),
      out = (relu (relu (x · w1 + b1) · w2 + b2)) · w3 + b3,
  where relu is the maximum with zero. The kernel runs 32 grid points, each on a block of 128 rows with the weights
  and biases whole; it narrows operands to bf16, which on extended reals is the identity, and its matrix products
  accumulate into zero, so each is the plain contraction sum the host's dot_general is. Every output row depends on
  its own input row only, so the 32 stored blocks are the 32 row-blocks of ONE array, the network applied to every
  row (Proof/KernelRow.lean, Proof/KernelValue.lean); the reference's stages compose to the same array
  (Proof/RefIsMlp.lean); the array itself is Proof/MlpSpec.lean. No algebraic law beyond reading each product as its
  sum is needed, so the finiteness of the inputs is never used. The idealization rewrote nothing, so its
  preservation claim is trivial; the kernels' frames are the generated ones and the reference's frame is its run with
  the result dropped.
-/
import proofs.«140255_j57166014709942_1_alg».proof.Defs
import proofs.«140255_j57166014709942_1_alg».proof.Proof.Gen.Kernel
import proofs.«140255_j57166014709942_1_alg».proof.Proof.Gen.Kernel.Skeleton
import proofs.«140255_j57166014709942_1_alg».proof.Proof.Gen.Kernel.Launch
import proofs.«140255_j57166014709942_1_alg».proof.Proof.Gen.Kernel.Points
import proofs.«140255_j57166014709942_1_alg».proof.Proof.Gen.Kernel.Frame
import proofs.«140255_j57166014709942_1_alg».proof.Proof.Gen.KernelIdeal
import proofs.«140255_j57166014709942_1_alg».proof.Proof.Gen.KernelIdeal.Skeleton
import proofs.«140255_j57166014709942_1_alg».proof.Proof.Gen.KernelIdeal.Launch
import proofs.«140255_j57166014709942_1_alg».proof.Proof.Gen.KernelIdeal.Points
import proofs.«140255_j57166014709942_1_alg».proof.Proof.Gen.KernelIdeal.Frame
import proofs.«140255_j57166014709942_1_alg».proof.Proof.Gen.ReferenceIdeal
import proofs.«140255_j57166014709942_1_alg».proof.Proof.Gen.Pre_finite_inputs
import proofs.«140255_j57166014709942_1_alg».proof.Proof.Gen.KernelIdeal.Value
import proofs.«140255_j57166014709942_1_alg».proof.Proof.Gen.ReferenceIdeal.Run
import proofs.«140255_j57166014709942_1_alg».proof.Proof.Gen.ReferenceIdeal.Read
import proofs.«140255_j57166014709942_1_alg».proof.Proof.KernelValue
import proofs.«140255_j57166014709942_1_alg».proof.Proof.RefIsMlp
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the network applied to every feature
    row (the kernel's run, block by block) and so does the reference's (its stages composed): one array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h2, h3, h4, h5, h6, h7]
  exact (Cert.ReferenceIdeal.Read.val_main_v14_eq _ _ _ _ _ _ _).trans
    (Cert.ReferenceIdeal.RefValue.result_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
